-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x128x512 : Shape := ⟨4, ![4, 128, 128, 512]⟩
abbrev S128x512 : Shape := ⟨2, ![128, 512]⟩
abbrev S128 : Shape := ⟨1, ![128]⟩
abbrev S_ : Shape := ⟨0, ![]⟩

class Facts : Prop where
  bcast_S_S4x128x128x512 : S_.BroadcastsInDim S4x128x128x512 (![] : Fin 0 → Fin S4x128x128x512.rank)
  reducesTo_S4x128x128x512_S_d0_1_2_3 : S4x128x128x512.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x128x128x512 .f32) (main_arg1 : FVec F S128x512 .f32) (main_arg2 : FVec F S128 .f32) : IVec S_ 1 :=
  let main_v0 : FVec F S4x128x128x512 .f32 := Host.absf main_arg0
  let main_cst : FVec F S_ .f32 := constant S_ .f32 0x7F800000#32
  let main_v1 : FVec F S4x128x128x512 .f32 := broadcastInDim S4x128x128x512 ![] bcast_S_S4x128x128x512 main_cst
  let main_v2 : IVec S4x128x128x512 1 := cmpf .olt main_v0 main_v1
  let main_c : IVec S_ 1 := constantI S_ 1 1#1
  let main_v3 : IVec S_ 1 := (fun x v => Host.reduce IntOp.andi x v reducesTo_S4x128x128x512_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x128x128x512 : Shape := ⟨4, ![4, 128, 128, 512]⟩
abbrev S128x512 : Shape := ⟨2, ![128, 512]⟩
abbrev S128 : Shape := ⟨1, ![128]⟩
abbrev S65536x512 : Shape := ⟨2, ![65536, 512]⟩
abbrev S512x128 : Shape := ⟨2, ![512, 128]⟩
abbrev S1x128 : Shape := ⟨2, ![1, 128]⟩
abbrev S65536x128 : Shape := ⟨2, ![65536, 128]⟩
abbrev S4096x512 : Shape := ⟨2, ![4096, 512]⟩
abbrev S4096x128 : Shape := ⟨2, ![4096, 128]⟩
abbrev S4x128x128x128 : Shape := ⟨4, ![4, 128, 128, 128]⟩

abbrev nBuf : Space → Nat
  | .hbm => 9
  | .vmem => 6
  | .smem => 0
  | _ => 0

abbrev bufTy : (tb : Table) → Fin (tcTables nBuf tb) → BufTy
  | .hbm, ⟨0, _⟩ => ⟨S4x128x128x512, .f32⟩
  | .hbm, ⟨1, _⟩ => ⟨S128x512, .f32⟩
  | .hbm, ⟨2, _⟩ => ⟨S128, .f32⟩
  | .hbm, ⟨3, _⟩ => ⟨S65536x512, .f32⟩
  | .hbm, ⟨4, _⟩ => ⟨S512x128, .f32⟩
  | .hbm, ⟨5, _⟩ => ⟨S1x128, .f32⟩
  | .hbm, ⟨6, _⟩ => ⟨S65536x128, .f32⟩
  | .hbm, ⟨7, _⟩ => ⟨S4x128x128x128, .f32⟩
  | .hbm, ⟨8, _⟩ => ⟨S4x128x128x128, .f32⟩
  | .local _ .vmem, ⟨0, _⟩ => ⟨S4096x512, .f32⟩
  | .local _ .vmem, ⟨1, _⟩ => ⟨S4096x512, .f32⟩
  | .local _ .vmem, ⟨2, _⟩ => ⟨S512x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S4x128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x128x128x512_S65536x512 : S4x128x128x512.ShapeCasts S65536x512
  transposes_S128x512_S512x128_1_0 : S128x512.Transposes [1, 0] S512x128
  shapeCasts_S128_S1x128 : S128.ShapeCasts S1x128
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S65536x128_S4x128x128x128 : S65536x128.ShapeCasts S4x128x128x128
  transposes_S4x128x128x128_S4x128x128x128_0_3_1_2 : S4x128x128x128.Transposes [0, 3, 1, 2] S4x128x128x128
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S65536x128.size a
  hwx0_3 : ∀ i : grid0.Coords, EltTy.bits .f32 = 32 ∨ (Rect.block (s := S65536x128) S4096x128.size (cc0_transform_3 i) (hinb0_3 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x128x512 : Shape := ⟨4, ![4, 128, 128, 512]⟩
abbrev S128x512 : Shape := ⟨2, ![128, 512]⟩
abbrev S128 : Shape := ⟨1, ![128]⟩
abbrev S4x128x128x128 : Shape := ⟨4, ![4, 128, 128, 128]⟩
abbrev S1x1x1x128 : Shape := ⟨4, ![1, 1, 1, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x128x128x512, .f32⟩
  | .hbm, ⟨1, _⟩ => ⟨S128x512, .f32⟩
  | .hbm, ⟨2, _⟩ => ⟨S128, .f32⟩
  | .hbm, ⟨3, _⟩ => ⟨S4x128x128x128, .f32⟩
  | .hbm, ⟨4, _⟩ => ⟨S1x1x1x128, .f32⟩
  | .hbm, ⟨5, _⟩ => ⟨S4x128x128x128, .f32⟩
  | .hbm, ⟨6, _⟩ => ⟨S4x128x128x128, .f32⟩
  | .hbm, ⟨7, _⟩ => ⟨S4x128x128x128, .f32⟩
  | _, _ => ⟨S4x128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x128x128x128_0_1_2_3 : S1x1x1x128.BroadcastsInDim S4x128x128x128 (![0, 1, 2, 3] : Fin 4 → Fin S4x128x128x128.rank)
  transposes_S4x128x128x128_S4x128x128x128_0_3_1_2 : S4x128x128x128.Transposes [0, 3, 1, 2] S4x128x128x128
  dot_S4x128x128x512_S128x512_S4x128x128x128_3_1_012_0_n_n_wf : DotDims.WF S4x128x128x512 S128x512 S4x128x128x128 [3] [1] [0, 1, 2] [0] [] []

variable [Facts₀]

def dot_S4x128x128x512_S128x512_S4x128x128x128_3_1_012_0_n_n : DotDims S4x128x128x512 S128x512 S4x128x128x128 where
  lhsContracting := [3]
  rhsContracting := [1]
  lhsNonContracting := [0, 1, 2]
  rhsNonContracting := [0]
  lhsBatch := []
  rhsBatch := []
  wf := dot_S4x128x128x512_S128x512_S4x128x128x128_3_1_012_0_n_n_wf

class Facts : Prop extends Facts₀ where

variable [Facts]
-- ==== Proof.Payload.lean ====
/-
  The kernel body's one stored value, read at an entry, at the ideal instance.

  The body loads a [4096, 512] block of rows, the whole [512, 128] weight matrix and the [1, 128] bias row, narrows the
  two matrix operands (a change of format: the identity on extended reals), multiplies them into a zero accumulator and
  adds the bias row broadcast down the rows.  So the entry at row `p`, column `q` of what it stores is
  `(∑ k, rows (p, k) · weights (k, q)) + bias (0, q)`: the contraction runs over the one shared axis of extent 512.
-/
import proofs.«146917_j29549374997247_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices, axis by axis

For the [4096, 512] × [512, 128] product the left operand is read at (output row, contraction position) and the right
one at (contraction position, output column). -/

theorem lhs_row (j : S4096x128.Idx) (q : dot_S4096x512_S512x128_S4096x128_1_0_0_1_n_n.contr.Idx) :
    (dot_S4096x512_S512x128_S4096x128_1_0_0_1_n_n.lhsIdx j q 0).val = (j 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs_contr (j : S4096x128.Idx) (q : dot_S4096x512_S512x128_S4096x128_1_0_0_1_n_n.contr.Idx) :
    (dot_S4096x512_S512x128_S4096x128_1_0_0_1_n_n.lhsIdx j q 1).val = (q ⟨0, by decide⟩).val :=
  dot_S4096x512_S512x128_S4096x128_1_0_0_1_n_n.lhsIdx_val_of_single rfl j q
theorem rhs_contr (j : S4096x128.Idx) (q : dot_S4096x512_S512x128_S4096x128_1_0_0_1_n_n.contr.Idx) :
    (dot_S4096x512_S512x128_S4096x128_1_0_0_1_n_n.rhsIdx j q 0).val = (q ⟨0, by decide⟩).val :=
  dot_S4096x512_S512x128_S4096x128_1_0_0_1_n_n.rhsIdx_val_of_single rfl j q
theorem rhs_col (j : S4096x128.Idx) (q : dot_S4096x512_S512x128_S4096x128_1_0_0_1_n_n.contr.Idx) :
    (dot_S4096x512_S512x128_S4096x128_1_0_0_1_n_n.rhsIdx j q 1).val = (j 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The product into the zero accumulator, at (p, q): the sum over the 512 contraction positions. -/
theorem matmul_entry (a : FVec Ideal S4096x512 .bf16) (w : FVec Ideal S512x128 .bf16) (p : Fin 4096) (q : Fin 128) :
    matmul (F := Ideal) dot_S4096x512_S512x128_S4096x128_1_0_0_1_n_n none a w (constant S4096x128 .f32 0x00000000#32) (ix2 p q)
      = ∑ k : Fin 512, a (ix2 p k) * w (ix2 k q) := by
  simp only [matmul]
  rw [Ideal.matmul_constant_zero_apply, ← Equiv.sum_comp (ValueIdx.contrEquiv1 dot_S4096x512_S512x128_S4096x128_1_0_0_1_n_n 512 rfl rfl).symm]
  refine Finset.sum_congr rfl fun k _ => ?_
  have hk := ValueIdx.contrEquiv1_symm_val dot_S4096x512_S512x128_S4096x128_1_0_0_1_n_n 512 rfl rfl k
  have el : dot_S4096x512_S512x128_S4096x128_1_0_0_1_n_n.lhsIdx (ix2 p q) ((ValueIdx.contrEquiv1 dot_S4096x512_S512x128_S4096x128_1_0_0_1_n_n 512 rfl rfl).symm k) = ix2 p k := funext fun a => Fin.ext (by
    match a with
    | ⟨0, _⟩ => exact lhs_row _ _
    | ⟨1, _⟩ => exact (lhs_contr _ _).trans hk)
  have er : dot_S4096x512_S512x128_S4096x128_1_0_0_1_n_n.rhsIdx (ix2 p q) ((ValueIdx.contrEquiv1 dot_S4096x512_S512x128_S4096x128_1_0_0_1_n_n 512 rfl rfl).symm k) = ix2 k q := funext fun a => Fin.ext (by
    match a with
    | ⟨0, _⟩ => exact (rhs_contr _ _).trans hk
    | ⟨1, _⟩ => exact rhs_col _ _)
  rw [el, er]

/-- The bias row broadcast down the 4096 rows, at (p, q): the row's entry in column q. -/
theorem bias_entry (r : FVec Ideal S1x128 .f32) (p : Fin 4096) (q : Fin 128) :
    broadcastTo S4096x128 r broadcasts_S1x128_S4096x128 (ix2 p q) = r (ix2 0 q) :=
  broadcastTo_apply r broadcasts_S1x128_S4096x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The stored value at row p, column q. -/
theorem stored_entry (x0 : Vec Ideal S4096x512 .f32) (x1 : Vec Ideal S512x128 .f32) (x2 : Vec Ideal S1x128 .f32)
    (p : Fin 4096) (q : Fin 128) :
    k0_pay1 (F := Ideal) x0 x1 x2 (ix2 p q) = (∑ k : Fin 512, x0 (ix2 p k) * x1 (ix2 k q)) + x2 (ix2 0 q) := by
  unfold k0_pay1
  rw [shapeCast_self, shapeCast_self, shapeCast_self]
  show matmul (F := Ideal) dot_S4096x512_S512x128_S4096x128_1_0_0_1_n_n none (truncf .bf16 x0 bitsLt_bf16_f32) (truncf .bf16 x1 bitsLt_bf16_f32) (constant S4096x128 .f32 0x00000000#32) (ix2 p q)
      + broadcastTo S4096x128 x2 broadcasts_S1x128_S4096x128 (ix2 p q) = _
  rw [matmul_entry, bias_entry]
  rfl

end Cert.KernelIdeal.Payload

end
-- ==== Proof.Spec.lean ====
/-
  The projection, as one function of the three arrays the kernel's region reads.

  With the input flattened to 65536 rows of 512 features, the weights laid out [512, 128] and the bias as a [1, 128] row,
  the entry at row r, channel n of the region's result is `(∑ k, rows (r, k) · weights (k, n)) + bias (0, n)`.
-/
import proofs.«146917_j29549374997247_1_alg».proof.KernelIdeal
import Idealize.ShloMosaic.Lib.ValueIdx
import Idealize.ShloMosaic.PureOps.Ideal

noncomputable section

namespace Cert.ChannelProj

open Cert.KernelIdeal Idealize.ShloMosaic Idealize.ShloMosaic.ValueIdx

/-- Row r, channel n: the row's 512 features against the channel's 512 weights, plus the channel's bias. -/
def proj (v0 : Vec Ideal S65536x512 .f32) (v1 : Vec Ideal S512x128 .f32) (v2 : Vec Ideal S1x128 .f32) : Vec Ideal S65536x128 .f32 :=
  fun j => (∑ k : Fin 512, v0 (ix2 (j 0) k) * v1 (ix2 k (j 1))) + v2 (ix2 0 (j 1))

end Cert.ChannelProj

end
-- ==== Proof.KernelValue.lean ====
/-
  What the kernel's program computes, at the ideal instance.

  The program flattens the input to 65536 rows of 512 features, transposes the weights to [512, 128] and lays the bias
  out as a [1, 128] row; its region then walks 16 grid points, point t reading rows 4096·t … 4096·t + 4095 together with
  the whole weight matrix and the bias row, and writing the same rows of a [65536, 128] result; afterwards the result is
  unflattened to [4, 128, 128, 128] and its channel axis moved to second place.

  Every point's block is a block of ONE function of the three staged arrays — row r, channel n ↦
  `(∑ k, rows (r, k) · weights (k, n)) + bias (0, n)` — because the rows a point reads are exactly the rows it writes
  and the other two operands are read whole.  The 16 blocks of 4096 rows tile the 65536 rows, so the region's result
  array is that function; the two layout operations after the region are then applied to it.
-/
import proofs.«146917_j29549374997247_1_alg».proof.Proof.Gen.KernelIdeal.Frame
import proofs.«146917_j29549374997247_1_alg».proof.Proof.Payload
import proofs.«146917_j29549374997247_1_alg».proof.Proof.Spec
import Idealize.ShloMosaic.Lib.Pipeline.Value
import Idealize.ShloMosaic.Lib.StableHlo.Run

set_option maxRecDepth 16384

noncomputable section

namespace Cert.KernelIdeal.RowsValue

open Cert.KernelIdeal Cert.KernelIdeal.Gen Idealize.ShloMosaic Idealize.ShloMosaic.TcCoe Idealize.SL.Sem Idealize.ShloMosaic.ValueIdx
open Idealize.ShloMosaic.Pipeline (Dat)
open Cert.ChannelProj (proj)

variable (m : (ℓ : Loc nD τ sig) → Buf (Elt Ideal) ℓ) (ρ : Dev nD → PrngReg)

/-- The three arrays the region stages, as it finds them: the flattened input, the transposed weights, the bias row. -/
abbrev rows (c : Dev nD) : Vec Ideal S65536x512 .f32 := V m c main_v0
abbrev wts (c : Dev nD) : Vec Ideal S512x128 .f32 := V m c main_v1
abbrev bias (c : Dev nD) : Vec Ideal S1x128 .f32 := V m c main_v2

theorem zero_offsets : (![0, 0] : Fin 2 → Nat) = fun _ => 0 := funext fun a => by fin_cases a <;> rfl

/-- The block indices at grid point t: the row operand and the result are both at row block t (and column block 0);
    the weights and the bias are always at block (0, 0). -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

/-- What point t writes back is block t of the projection of the staged arrays: entry (p, q) of the block sits at row
    4096·t + p, and the rows the point read are rows 4096·t + p of the flattened input. -/
theorem written_block (c : Dev nD) (t : Fin cfg0.N) :
    (dats m 0 c).flushed 3 t = ((cfg0.win 3).blk t).view.read (Elt Ideal) (proj (rows m c) (wts m c) (bias m c)) := by
  show (cfg0.win 3).cut (grid0.coords t) ((dats m 0 c).after 3 t) = _
  rw [after0_3]
  unfold out0_3
  rw [View.canon_unit_zero zero_offsets]
  simp only [View.ld_unit_zero (S := S4096x512) zero_offsets, View.ld_unit_zero (S := S512x128) zero_offsets,
    View.ld_unit_zero (S := S1x128) zero_offsets]
  obtain ⟨e0, e1, e2, e3, e4, e5, e6, e7⟩ := block_indices t
  funext j
  obtain ⟨p, q, rfl⟩ : ∃ (p : Fin 4096) (q : Fin 128), j = ix2 p q := ⟨j 0, j 1, eq_ix2 j⟩
  show k0_pay1 (F := Ideal) (iblk m c 0 t) (iblk m c 1 t) (iblk m c 2 t) (ix2 p q)
    = proj (rows m c) (wts m c) (bias m c) (((cfg0.win 3).blk t).view.emb (ix2 p q))
  refine (Payload.stored_entry (iblk m c 0 t) (iblk m c 1 t) (iblk m c 2 t) p q).trans ?_
  have ht : t.val < 16 := lt_of_lt_of_eq t.isLt N_0
  have hp : p.val < 4096 := p.isLt
  have h3 : ((cfg0.win 3).blk t).view.emb (ix2 p q) = ix2 (⟨t.val * 4096 + p.val, by omega⟩ : Fin 65536) q := by
    funext a; apply Fin.ext
    match a with
    | ⟨0, _⟩ => show win0_3.index t (0 : Fin 2) * 4096 + 1 * p.val = t.val * 4096 + p.val; omega
    | ⟨1, _⟩ => show win0_3.index t (1 : Fin 2) * 128 + 1 * q.val = q.val; omega
  have h0 : ∀ k : Fin 512, ((cfg0.win 0).blk t).view.emb (ix2 p k) = ix2 (⟨t.val * 4096 + p.val, by omega⟩ : Fin 65536) k := by
    intro k; funext a; apply Fin.ext
    match a with
    | ⟨0, _⟩ => show win0_0.index t (0 : Fin 2) * 4096 + 1 * p.val = t.val * 4096 + p.val; omega
    | ⟨1, _⟩ => show win0_0.index t (1 : Fin 2) * 512 + 1 * k.val = k.val; omega
  have h1 : ∀ k : Fin 512, ((cfg0.win 1).blk t).view.emb (ix2 k q) = ix2 k q := by
    intro k; funext a; apply Fin.ext
    match a with
    | ⟨0, _⟩ => show win0_1.index t (0 : Fin 2) * 512 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show (∑ k : Fin 512, rows m c (((cfg0.win 0).blk t).view.emb (ix2 p k)) * wts m c (((cfg0.win 1).blk t).view.emb (ix2 k q)))
      + bias m c (((cfg0.win 2).blk t).view.emb (ix2 (0 : Fin 1) q)) = _
  rw [h3, h2]
  unfold proj
  refine congrArg (· + _) (Finset.sum_congr rfl fun k _ => ?_)
  rw [h0 k, h1 k]

/-- An entry of the result array lies in point t's block iff each coordinate lies in the block's range on its axis. -/
theorem mem_block (t : Fin cfg0.N) (i : S65536x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v3).slice (win0_3.rect t)).set ↔ _
  rw [View.set_slice_whole, Rect.mem_set_unit]
  exact Iff.rfl

/-- Row r is written by point r / 4096: the 16 row blocks tile the 65536 rows. -/
theorem rows_tiled (i : S65536x128.Idx) : ∃ t : Fin cfg0.N, (cfg0.win 3).flush t = true ∧ i ∈ ((cfg0.win 3).blk t).view.set := by
  have hi0 : (i 0).val < 65536 := (i 0).isLt
  have hi1 : (i 1).val < 128 := (i 1).isLt
  obtain ⟨t, ht⟩ : ∃ t : Fin cfg0.N, t.val = (i 0).val / 4096 :=
    ⟨⟨(i 0).val / 4096, lt_of_lt_of_eq (by omega : (i 0).val / 4096 < 16) N_0.symm⟩, rfl⟩
  obtain ⟨e0, e1, e2, e3, e4, e5, e6, e7⟩ := block_indices t
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The region's result array, after the last point: the projection of the staged arrays. -/
theorem region_result (c : Dev nD) : (dats m 0 c).arrAt 3 cfg0.N = proj (rows m c) (wts m c) (bias m c) :=
  (dats m 0 c).arrAt_eq_of_cover 3 (proj (rows m c) (wts m c) (bias m c)) (fun t _ => written_block m c t) rows_tiled

/-- The staged arrays, from the program's arguments: the input flattened, the weights transposed, the bias as a row. -/
theorem rows_eq (c : Dev nD) : rows m c = shapeCast S65536x512 (m ((c : Thread nD τ).loc main_arg0)) shapeCasts_S4x128x128x512_S65536x512 := by
  show StableHlo.after hostOps0 (fun b => m (c, b)) (Proc.devRef .tc main_v0) = _
  after_results
  all_goals rfl

theorem wts_eq (c : Dev nD) : wts m c = transpose S512x128 [1, 0] (m ((c : Thread nD τ).loc main_arg1)) transposes_S128x512_S512x128_1_0 := by
  show StableHlo.after hostOps0 (fun b => m (c, b)) (Proc.devRef .tc main_v1) = _
  after_results
  all_goals rfl

theorem bias_eq (c : Dev nD) : bias m c = shapeCast S1x128 (m ((c : Thread nD τ).loc main_arg2)) shapeCasts_S128_S1x128 := by
  show StableHlo.after hostOps0 (fun b => m (c, b)) (Proc.devRef .tc main_v2) = _
  after_results
  all_goals rfl

/-- The program's result from the region's: unflattened to [4, 128, 128, 128], the channel axis moved to second place. -/
theorem result_of_region (c : Dev nD) : Pipeline.afterTail₀ cfgs (dats m) 0 (V0 m) [hostOps1] c main_v5
    = transpose S4x128x128x128 [0, 3, 1, 2] (shapeCast S4x128x128x128 ((dats m 0 c).arrAt 3 cfg0.N) shapeCasts_S65536x128_S4x128x128x128) transposes_S4x128x128x128_S4x128x128x128_0_3_1_2 := by
  unfold Pipeline.afterTail₀
  show StableHlo.after hostOps1 _ (Proc.devRef .tc main_v5) = _
  after_results
  exact congrArg (fun y : Vec Ideal S65536x128 .f32 => transpose S4x128x128x128 [0, 3, 1, 2] (shapeCast S4x128x128x128 y shapeCasts_S65536x128_S4x128x128x128) transposes_S4x128x128x128_S4x128x128x128_0_3_1_2)
    (Pipeline.withArrays_arr spec0 launch0.win.arr_inj c (V0 m c) (fun w => (dats m 0 c).arrAt w cfg0.N) 3)

/-- Every weakly fair execution of the program terminates with its result at the transposed unflattening of the
    projection of the flattened input, the transposed weights and the bias row, and with its arguments unchanged. -/
theorem run : θ_run defs (onTc (τ := τ) (main (F := Ideal))) ⟨m, fun _ => 0, ρ⟩ fun r => ∀ c : Dev nD,
      r.2.mem ((c.tc : Thread nD τ).loc main_v5)
        = transpose S4x128x128x128 [0, 3, 1, 2] (shapeCast S4x128x128x128
            (proj (shapeCast S65536x512 (m ((c.tc : Thread nD τ).loc main_arg0)) shapeCasts_S4x128x128x512_S65536x512)
              (transpose S512x128 [1, 0] (m ((c.tc : Thread nD τ).loc main_arg1)) transposes_S128x512_S512x128_1_0)
              (shapeCast S1x128 (m ((c.tc : Thread nD τ).loc main_arg2)) shapeCasts_S128_S1x128))
            shapeCasts_S65536x128_S4x128x128x128) transposes_S4x128x128x128_S4x128x128x128_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v5 (Pipeline.mem_restRefs_of main_v5 (by decide) (by decide))).trans
        ((result_of_region m c).trans (by rw [region_result, rows_eq, wts_eq, bias_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RowsValue

end
-- ==== Proof.Bridge.lean ====
/-
  The flattened projection, unflattened, is the reference's sum-and-bias, entry by entry.

  Entry (a, h, w, n) of the [4, 128, 128, 128] reshape of the region's [65536, 128] result is its entry at row
  r = (a·128 + h)·128 + w, channel n.  Row r of the flattened input is pixel (a, h, w) of the input, entry (k, n) of the
  transposed weights is entry (n, k) of the weights, and entry (0, n) of the bias row is entry n of the bias.  So both
  sides are `(∑ k, x (a, h, w, k) · W (n, k)) + b n`, the same sum term by term: no law of the extended reals is used.
-/
import proofs.«146917_j29549374997247_1_alg».proof.Proof.Spec
import proofs.«146917_j29549374997247_1_alg».proof.Proof.Gen.ReferenceIdeal.Read
import Idealize.ShloMosaic.Lib.ValueIdx
import Idealize.ShloMosaic.Lib.Pipeline.Value

noncomputable section

namespace Cert.ChannelProj

open Cert.KernelIdeal Idealize.ShloMosaic Idealize.ShloMosaic.ValueIdx
open Cert.ReferenceIdeal.Read (val_main_v0 val_main_v1 val_main_v2 val_main_v3 lidx_main_v0 ridx_main_v0 idx_main_v1 idx_main_v2)

theorem unflatten_eq_reference (x : Vec Ideal S4x128x128x512 .f32) (W : Vec Ideal S128x512 .f32) (b : Vec Ideal S128 .f32)
    (h0 : S4x128x128x512.ShapeCasts S65536x512) (h1 : S128x512.Transposes [1, 0] S512x128) (h2 : S128.ShapeCasts S1x128)
    (h3 : S65536x128.ShapeCasts S4x128x128x128) :
    shapeCast S4x128x128x128 (proj (shapeCast S65536x512 x h0) (transpose S512x128 [1, 0] W h1) (shapeCast S1x128 b h2)) h3
      = val_main_v3 (F := Ideal) x W b := by
  funext i
  obtain ⟨a, h, w, n, rfl⟩ : ∃ (a : Fin 4) (h : Fin 128) (w : Fin 128) (n : Fin 128), i = ix4 a h w n :=
    ⟨i 0, i 1, i 2, i 3, eq_ix4 i⟩
  have ha := a.isLt; have hh := h.isLt; have hw := w.isLt; have hn := n.isLt
  refine (shapeCast_apply _ h3 (ix4 a h w n) (ix2 (⟨(a.val * 128 + h.val) * 128 + w.val, by omega⟩ : Fin 65536) n) ?_).trans ?_
  · rw [Shape.rowMajor_val_two, Shape.rowMajor_val_four]
    rfl
  rw [Cert.ReferenceIdeal.Read.val_main_v3_apply, Cert.ReferenceIdeal.Read.val_main_v0_apply,
    Cert.ReferenceIdeal.Read.val_main_v2_apply, Cert.ReferenceIdeal.Read.val_main_v1_apply]
  show (∑ k : Fin 512, shapeCast S65536x512 x h0 (ix2 (⟨(a.val * 128 + h.val) * 128 + w.val, by omega⟩ : Fin 65536) k)
        * transpose S512x128 [1, 0] W h1 (ix2 k n)) + shapeCast S1x128 b h2 (ix2 (0 : Fin 1) n)
      = (∑ k : Fin 512, x (lidx_main_v0 (ix4 a h w n) k) * W (ridx_main_v0 (ix4 a h w n) k))
        + b (idx_main_v1 (idx_main_v2 (ix4 a h w n)))
  refine congrArg₂ (· + ·) (Finset.sum_congr rfl fun k _ => congrArg₂ (· * ·) ?_ ?_) ?_
  · refine shapeCast_apply x h0 _ (lidx_main_v0 (ix4 a h w n) k) ?_
    rw [Shape.rowMajor_val_two, Shape.rowMajor_val_four]
    rfl
  · exact transpose_apply [1, 0] W h1 (ix2 k n) (ridx_main_v0 (ix4 a h w n) k) (fun c => match c with
      | ⟨0, _⟩ => rfl
      | ⟨1, _⟩ => rfl)
  · refine shapeCast_apply b h2 _ (idx_main_v1 (idx_main_v2 (ix4 a h w n))) ?_
    rw [Shape.rowMajor_val_two, Shape.rowMajor_val_one]
    show n.val = 0 * 128 + n.val
    omega

end Cert.ChannelProj

end
-- ==== Proof.lean ====
/-
  The kernel computes a per-pixel linear projection with a bias — out (a, n, h, w) = (∑ k, x (a, h, w, k) · W (n, k)) + b n —
  by flattening the pixels to rows, multiplying 4096-row blocks by the transposed weights, adding the bias row, and
  unflattening and moving the channel axis afterwards; the reference contracts the feature axis of x against that of W
  directly, adds the broadcast bias and moves the channel axis.  At the ideal instance the narrowing of the matrix
  operands is the identity, and both programs' results are, entry by entry, the same sum of the same 512 products in
  the same order plus the same bias entry: the two agree on every extended-real input, so finiteness is never used.

  The kernel's side: Proof/Payload.lean (the body's stored entry), Proof/KernelValue.lean (the region's result array and
  the program's run).  The bridge between the flattened projection and the reference's term: Proof/Spec.lean,
  Proof/Bridge.lean.  The reference's side is its generated run, read one operation at a time.
-/
import proofs.«146917_j29549374997247_1_alg».proof.Defs
import proofs.«146917_j29549374997247_1_alg».proof.Proof.Gen.Kernel
import proofs.«146917_j29549374997247_1_alg».proof.Proof.Gen.Kernel.Skeleton
import proofs.«146917_j29549374997247_1_alg».proof.Proof.Gen.Kernel.Launch
import proofs.«146917_j29549374997247_1_alg».proof.Proof.Gen.Kernel.Points
import proofs.«146917_j29549374997247_1_alg».proof.Proof.Gen.Kernel.Frame
import proofs.«146917_j29549374997247_1_alg».proof.Proof.Gen.KernelIdeal
import proofs.«146917_j29549374997247_1_alg».proof.Proof.Gen.KernelIdeal.Skeleton
import proofs.«146917_j29549374997247_1_alg».proof.Proof.Gen.KernelIdeal.Launch
import proofs.«146917_j29549374997247_1_alg».proof.Proof.Gen.KernelIdeal.Points
import proofs.«146917_j29549374997247_1_alg».proof.Proof.Gen.KernelIdeal.Frame
import proofs.«146917_j29549374997247_1_alg».proof.Proof.Gen.ReferenceIdeal
import proofs.«146917_j29549374997247_1_alg».proof.Proof.Gen.Pre_finite_inputs
import proofs.«146917_j29549374997247_1_alg».proof.Proof.Gen.ReferenceIdeal.Run
import proofs.«146917_j29549374997247_1_alg».proof.Proof.Gen.ReferenceIdeal.Read
import proofs.«146917_j29549374997247_1_alg».proof.Proof.KernelValue
import proofs.«146917_j29549374997247_1_alg».proof.Proof.Bridge
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, W and b both programs end with the reference's term of the kernel's arguments: the
    kernel's transposed, unflattened projection is that term (the unflattened projection is the reference's
    sum-and-bias, and both move the channel axis the same way), and the reference's run states it of its own
    arguments, which are the kernel's. -/
theorem algebraic : Cert.algebraic_KernelIdeal_ReferenceIdeal := by
  intro m ρ m' ρ' _ hagree
  refine ⟨fun c => Cert.ReferenceIdeal.Read.val_main_v4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.RowsValue.run m ρ)
    exact congrArg (fun y => transpose Cert.KernelIdeal.S4x128x128x128 [0, 3, 1, 2] y
        Cert.KernelIdeal.Facts₀.transposes_S4x128x128x128_S4x128x128x128_0_3_1_2)
      (Cert.ChannelProj.unflatten_eq_reference
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        Cert.KernelIdeal.Facts₀.shapeCasts_S4x128x128x512_S65536x512
        Cert.KernelIdeal.Facts₀.transposes_S128x512_S512x128_1_0
        Cert.KernelIdeal.Facts₀.shapeCasts_S128_S1x128
        Cert.KernelIdeal.Facts₀.shapeCasts_S65536x128_S4x128x128x128)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
